-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S131072x64 : Shape := ⟨2, ![131072, 64]⟩
abbrev S64x128 : Shape := ⟨2, ![64, 128]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S131072x64 : S_.BroadcastsInDim S131072x64 (![] : Fin 0 → Fin S131072x64.rank)
  reducesTo_S131072x64_S_d0_1 : S131072x64.ReducesTo [0, 1] S_
  bcast_S_S64x128 : S_.BroadcastsInDim S64x128 (![] : Fin 0 → Fin S64x128.rank)
  reducesTo_S64x128_S_d0_1 : S64x128.ReducesTo [0, 1] S_

variable [Facts]

def fn {F : FTy → Type} [FloatOps F] (main_arg0 : FVec F S131072x128 .f32) (main_arg1 : FVec F S131072x64 .f32) (main_arg2 : FVec F S64x128 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S131072x64 .f32 := Host.absf main_arg1
  let main_cst_0 : FVec F S_ .f32 := constant S_ .f32 0x7F800000#32
  let main_v5 : FVec F S131072x64 .f32 := broadcastInDim S131072x64 ![] bcast_S_S131072x64 main_cst_0
  let main_v6 : IVec S131072x64 1 := cmpf .olt main_v4 main_v5
  let main_c_1 : IVec S_ 1 := constantI S_ 1 1#1
  let main_v7 : IVec S_ 1 := (fun x v => Host.reduce IntOp.andi x v reducesTo_S131072x64_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  main_v13
-- ==== Kernel.lean ====
abbrev S131072x128 : Shape := ⟨2, ![131072, 128]⟩
abbrev S131072x64 : Shape := ⟨2, ![131072, 64]⟩
abbrev S64x128 : Shape := ⟨2, ![64, 128]⟩
abbrev S_ : Shape := ⟨0, ![]⟩
abbrev S64 : Shape := ⟨1, ![64]⟩
abbrev S64x1 : Shape := ⟨2, ![64, 1]⟩
abbrev S1x64 : Shape := ⟨2, ![1, 64]⟩
abbrev S1x1 : Shape := ⟨2, ![1, 1]⟩
abbrev S8192x128 : Shape := ⟨2, ![8192, 128]⟩
abbrev S8192x64 : Shape := ⟨2, ![8192, 64]⟩
abbrev S8192 : Shape := ⟨1, ![8192]⟩
abbrev S8192x1 : Shape := ⟨2, ![8192, 1]⟩
abbrev S128x64 : Shape := ⟨2, ![128, 64]⟩
abbrev S1 : Shape := ⟨1, ![1]⟩

abbrev nBuf : Space → Nat
  | .hbm => 10
  | .vmem => 8
  | .smem => 0
  | _ => 0

abbrev bufTy : (tb : Table) → Fin (tcTables nBuf tb) → BufTy
  | .hbm, ⟨0, _⟩ => ⟨S131072x128, .f32⟩
  | .hbm, ⟨1, _⟩ => ⟨S131072x64, .f32⟩
  | .hbm, ⟨2, _⟩ => ⟨S64x128, .f32⟩
  | .hbm, ⟨3, _⟩ => ⟨S64x128, .f32⟩
  | .hbm, ⟨4, _⟩ => ⟨S_, .f32⟩
  | .hbm, ⟨5, _⟩ => ⟨S64, .f32⟩
  | .hbm, ⟨6, _⟩ => ⟨S64x1, .f32⟩
  | .hbm, ⟨7, _⟩ => ⟨S1x64, .f32⟩
  | .hbm, ⟨8, _⟩ => ⟨S1x1, .f32⟩
  | .hbm, ⟨9, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x64, .f32⟩
  | .local _ .vmem, ⟨3, _⟩ => ⟨S8192x64, .f32⟩
  | .local _ .vmem, ⟨4, _⟩ => ⟨S64x128, .f32⟩
  | .local _ .vmem, ⟨5, _⟩ => ⟨S1x64, .f32⟩
  | .local _ .vmem, ⟨6, _⟩ => ⟨S1x1, .f32⟩
  | .local _ .vmem, ⟨7, _⟩ => ⟨S1x1, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v31 : BitVec 1 := Scalar.cmpi .eq arg0 c15_i32
  let v32 : BitVec 32 := Scalar.extui v31
  let c0_i32_16 : BitVec 32 := 0#32
  let v33 : BitVec 1 := Scalar.cmpi .ne v32 c0_i32_16
  v33

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  reducesTo_S64x128_S64_d1 : S64x128.ReducesTo [1] S64
  h_S_ : 0 < S_.numel
  bcast_S64_S64x1_0 : S64.BroadcastsInDim S64x1 (![0] : Fin 1 → Fin S64x1.rank)
  shapeCasts_S64x1_S1x64 : S64x1.ShapeCasts S1x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8192x128_S8192x128_0_0 : ∀ a, (![0, 0] : Fin 2 → Nat) a + S8192x128.size a ≤ S8192x128.size a
  h_S8192x128 : 0 < S8192x128.numel
  inb_S8192x64_S8192x64_0_0 : ∀ a, (![0, 0] : Fin 2 → Nat) a + S8192x64.size a ≤ S8192x64.size a
  h_S8192x64 : 0 < S8192x64.numel
  inb_S64x128_S64x128_0_0 : ∀ a, (![0, 0] : Fin 2 → Nat) a + S64x128.size a ≤ S64x128.size a
  h_S64x128 : 0 < S64x128.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  reduces_S8192x128_S8192 : S8192x128.Reduces [1] S8192
  shapeCasts_S8192_S8192x1 : S8192.ShapeCasts S8192x1
  bitsLt_bf16_f32 : FTy.bits .bf16 < FTy.bits .f32
  transposes_S64x128_p1_0_S128x64 : S64x128.Transposes [1, 0] S128x64
  broadcasts_S8192x1_S8192x64 : S8192x1.Broadcasts S8192x64
  broadcasts_S1x64_S8192x64 : S1x64.Broadcasts S8192x64
  reduces_S8192x64_S8192 : S8192x64.Reduces [1] S8192
  reduces_S8192x1_S1 : S8192x1.Reduces [0] S1
  shapeCasts_S1_S1x1 : S1.ShapeCasts S1x1
  shapeCasts_S1x1_S_ : S1x1.ShapeCasts S_
  dot_S8192x128_S128x64_S8192x64_1_0_0_1_n_n_wf : DotDims.WF S8192x128 S128x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S131072x128.size a
  hwx0_0 : ∀ i : grid0.Coords, EltTy.bits .f32 = 32 ∨ (Rect.block (s := S131072x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S131072x64.size a
  hwx0_1 : ∀ i : grid0.Coords, EltTy.bits .f32 = 32 ∨ (Rect.block (s := S131072x64) S8192x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S131072x128 : Shape := ⟨2, ![131072, 128]⟩
abbrev S131072x64 : Shape := ⟨2, ![131072, 64]⟩
abbrev S64x128 : Shape := ⟨2, ![64, 128]⟩
abbrev S_ : Shape := ⟨0, ![]⟩
abbrev S131072 : Shape := ⟨1, ![131072]⟩
abbrev S64 : Shape := ⟨1, ![64]⟩
abbrev S128x64 : Shape := ⟨2, ![128, 64]⟩
abbrev S131072x1 : Shape := ⟨2, ![131072, 1]⟩
abbrev S1x64 : Shape := ⟨2, ![1, 64]⟩

abbrev nBuf : Space → Nat
  | .hbm => 25
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S131072x64, .f32⟩
  | .hbm, ⟨2, _⟩ => ⟨S64x128, .f32⟩
  | .hbm, ⟨3, _⟩ => ⟨S131072x128, .f32⟩
  | .hbm, ⟨4, _⟩ => ⟨S_, .f32⟩
  | .hbm, ⟨5, _⟩ => ⟨S131072, .f32⟩
  | .hbm, ⟨6, _⟩ => ⟨S64x128, .f32⟩
  | .hbm, ⟨7, _⟩ => ⟨S_, .f32⟩
  | .hbm, ⟨8, _⟩ => ⟨S64, .f32⟩
  | .hbm, ⟨9, _⟩ => ⟨S128x64, .f32⟩
  | .hbm, ⟨10, _⟩ => ⟨S131072x64, .f32⟩
  | .hbm, ⟨11, _⟩ => ⟨S131072x1, .f32⟩
  | .hbm, ⟨12, _⟩ => ⟨S1x64, .f32⟩
  | .hbm, ⟨13, _⟩ => ⟨S131072x64, .f32⟩
  | .hbm, ⟨14, _⟩ => ⟨S131072x64, .f32⟩
  | .hbm, ⟨15, _⟩ => ⟨S131072x64, .f32⟩
  | .hbm, ⟨16, _⟩ => ⟨S_, .f32⟩
  | .hbm, ⟨17, _⟩ => ⟨S131072x64, .f32⟩
  | .hbm, ⟨18, _⟩ => ⟨S131072x64, .f32⟩
  | .hbm, ⟨19, _⟩ => ⟨S131072x64, .f32⟩
  | .hbm, ⟨20, _⟩ => ⟨S131072x64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  reducesTo_S131072x128_S131072_d1 : S131072x128.ReducesTo [1] S131072
  h_S_ : 0 < S_.numel
  reducesTo_S64x128_S64_d1 : S64x128.ReducesTo [1] S64
  transposes_S64x128_S128x64_1_0 : S64x128.Transposes [1, 0] S128x64
  bcast_S131072_S131072x1_0 : S131072.BroadcastsInDim S131072x1 (![0] : Fin 1 → Fin S131072x1.rank)
  bcast_S64_S1x64_1 : S64.BroadcastsInDim S1x64 (![1] : Fin 1 → Fin S1x64.rank)
  bcast_S131072x1_S131072x64_0_1 : S131072x1.BroadcastsInDim S131072x64 (![0, 1] : Fin 2 → Fin S131072x64.rank)
  bcast_S1x64_S131072x64_0_1 : S1x64.BroadcastsInDim S131072x64 (![0, 1] : Fin 2 → Fin S131072x64.rank)
  bcast_S_S131072x64 : S_.BroadcastsInDim S131072x64 (![] : Fin 0 → Fin S131072x64.rank)
  reducesTo_S131072x64_S_d0_1 : S131072x64.ReducesTo [0, 1] S_
  dot_S131072x128_S128x64_S131072x64_1_0_0_1_n_n_wf : DotDims.WF S131072x128 S128x64 S131072x64 [1] [0] [0] [1] [] []

variable [Facts₀]

def dot_S131072x128_S128x64_S131072x64_1_0_0_1_n_n : DotDims S131072x128 S128x64 S131072x64 where
  lhsContracting := [1]
  rhsContracting := [0]
  lhsNonContracting := [0]
  rhsNonContracting := [1]
  lhsBatch := []
  rhsBatch := []
  wf := dot_S131072x128_S128x64_S131072x64_1_0_0_1_n_n_wf

class Facts : Prop extends Facts₀ where

variable [Facts]
-- ==== Proof.WeightedSum.lean ====
/-
  The mathematics shared by the two programs, over the extended reals.

  For rows `x n` (n < N, 128 coordinates each), weights `w n k` (64 per row), centres `mu k` and a number `q k` per
  centre, `wsum` is  ∑ₙ ∑ₖ w n k · ((∑_d x n d · x n d + q k) − 2 · ∑_d x n d · mu k d):  with `q k` the squared norm of
  `mu k` this is the weighted sum of the squared distances ‖x n − mu k‖², written by the norm expansion.

  The sum over the 131072 rows splits into sixteen consecutive tiles of 8192 rows (`wsum_tiles`): addition of extended
  reals is commutative and associative, so a regrouping needs nothing of the summands, finite or not.
  A mean over the 2²³ entries is taken either by a product with 2⁻²³ or by a quotient by 2²³: one function on every
  extended real (`scale_eq_quotient`).
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

open scoped BigOperators

namespace Cert.WeightedSum

open Idealize.ShloMosaic Idealize.ShloMosaic.ValueIdx

/-- The factor 2 of the cross term, as the float word both programs spell. -/
abbrev two : EReal := Ideal.ofBits .f32 0x40000000#32

/-- The squared norm of centre `k`. -/
def sqNorm (mu : (⟨2, ![64, 128]⟩ : Shape).Idx → EReal) (k : Fin 64) : EReal :=
  ∑ d : Fin 128, mu (ix2 k d) * mu (ix2 k d)

/-- The weighted sum over `N` rows and the 64 centres. -/
def wsum (N : ℕ) (x : (⟨2, ![N, 128]⟩ : Shape).Idx → EReal) (w : (⟨2, ![N, 64]⟩ : Shape).Idx → EReal)
    (mu : (⟨2, ![64, 128]⟩ : Shape).Idx → EReal) (q : Fin 64 → EReal) : EReal :=
  ∑ n : Fin N, ∑ k : Fin 64,
    w (ix2 n k) * (((∑ d : Fin 128, x (ix2 n d) * x (ix2 n d)) + q k) - two * ∑ d : Fin 128, x (ix2 n d) * mu (ix2 k d))

/-! ## Sixteen tiles of 8192 rows -/

/-- Row `p` of tile `t`, as a row of the whole array. -/
def tileRow (t : Fin 16) (p : Fin 8192) : Fin 131072 :=
  ⟨t.val * 8192 + p.val, by have := t.isLt; have := p.isLt; omega⟩

/-- Tile `t` of an array of 131072 rows. -/
def rowTile {C : ℕ} (A : (⟨2, ![131072, C]⟩ : Shape).Idx → EReal) (t : Fin 16) : (⟨2, ![8192, C]⟩ : Shape).Idx → EReal :=
  fun y => A (ix2 (tileRow t (y 0)) (y 1))

/-- A sum over the rows is the sum over the tiles of the sums over each tile's rows. -/
theorem sum_rows {M : Type*} [AddCommMonoid M] (g : Fin 131072 → M) :
    ∑ n, g n = ∑ t : Fin 16, ∑ p : Fin 8192, g (tileRow t p) := by
  rw [← Equiv.sum_comp (finProdFinEquiv (m := 16) (n := 8192)) g, Fintype.sum_prod_type]
  refine Finset.sum_congr rfl fun t _ => Finset.sum_congr rfl fun p _ => congrArg g (Fin.ext ?_)
  show p.val + 8192 * t.val = t.val * 8192 + p.val
  omega

/-- The weighted sum over all rows is the sum of the sixteen tiles' weighted sums. -/
theorem wsum_tiles (X : (⟨2, ![131072, 128]⟩ : Shape).Idx → EReal) (R : (⟨2, ![131072, 64]⟩ : Shape).Idx → EReal)
    (mu : (⟨2, ![64, 128]⟩ : Shape).Idx → EReal) (q : Fin 64 → EReal) :
    wsum 131072 X R mu q = ∑ t : Fin 16, wsum 8192 (rowTile X t) (rowTile R t) mu q := by
  unfold wsum
  rw [sum_rows]
  rfl

/-! ## The two float words of the mean -/

/-- The word `0x4B000000` denotes 2²³ = 8388608. -/
theorem ofBits_count : Ideal.ofBits .f32 0x4B000000#32 = ((8388608 : ℝ) : EReal) := by
  simp [Ideal.ofBits, Ideal.ieee, -EReal.coe_mul]

/-- The word `0x34000000` denotes 2⁻²³ = 1 / 8388608. -/
theorem ofBits_inv_count : Ideal.ofBits .f32 0x34000000#32 = ((1 / 8388608 : ℝ) : EReal) := by
  simp [Ideal.ofBits, Ideal.ieee, -EReal.coe_mul]; norm_num

/-- The product with 2⁻²³ is the quotient by 2²³ of the sum started from the zero word, on every extended real. -/
theorem scale_eq_quotient (a : EReal) :
    a * Ideal.ofBits .f32 0x34000000#32 = Ideal.div (Ideal.ofBits .f32 0x00000000#32 + a) (Ideal.ofBits .f32 0x4B000000#32) := by
  rw [ofBits_count, ofBits_inv_count, Ideal.ofBits_zero_f32, zero_add, Ideal.div_coe (by norm_num : (8388608 : ℝ) ≠ 0)]

end Cert.WeightedSum

end
-- ==== Proof.RefSide.lean ====
/-
  The reference program read at the ideal instance: its result, at its one index, is the quotient by 2²³ of the
  weighted sum of squared distances over all 131072 rows, started from the zero word.

  Each entry (n, k) of the array the reference sums is  r n k · ((‖X n‖² + ‖mu k‖²) − 2 · ⟨X n, mu k⟩):  the two
  squared norms are host sums started from the zero word (which denotes 0), the inner product is the dot product with
  the transposed centres read back at (k, d), and the broadcasts only repeat a row's or a centre's number.
-/
import proofs.«179638_j7834020348325_1_alg».proof.Defs
import proofs.«179638_j7834020348325_1_alg».proof.Proof.Gen.ReferenceIdeal.Run
import proofs.«179638_j7834020348325_1_alg».proof.Proof.Gen.ReferenceIdeal.Read
import proofs.«179638_j7834020348325_1_alg».proof.Proof.WeightedSum

noncomputable section

open scoped BigOperators

namespace Cert.RefSide

open Cert.ReferenceIdeal Cert.ReferenceIdeal.Read Idealize.ShloMosaic Idealize.ShloMosaic.ValueIdx Cert.WeightedSum

/-- Entry (n, k) of the array the reference sums. -/
theorem entry_eq (x0 : (⟨S131072x128, .f32⟩ : BufTy).Contents (Elt Ideal)) (x1 : (⟨S131072x64, .f32⟩ : BufTy).Contents (Elt Ideal))
    (x2 : (⟨S64x128, .f32⟩ : BufTy).Contents (Elt Ideal)) (n : Fin 131072) (k : Fin 64) :
    val_main_v14 (F := Ideal) x0 x1 x2 (ix2 n k)
      = x1 (ix2 n k) * (((∑ d : Fin 128, x0 (ix2 n d) * x0 (ix2 n d)) + sqNorm x2 k)
          - two * ∑ d : Fin 128, x0 (ix2 n d) * x2 (ix2 k d)) := by
  have e1 : ∀ d : Fin 128, idx_main_v1 (idx_main_v6 (idx_main_v8 (ix2 n k))) d = ix2 n d := fun d =>
    funext fun a => Fin.ext (by match a with | ⟨0, _⟩ => rfl | ⟨1, _⟩ => rfl)
  have e3 : ∀ d : Fin 128, idx_main_v3 (idx_main_v7 (idx_main_v9 (ix2 n k))) d = ix2 k d := fun d =>
    funext fun a => Fin.ext (by match a with | ⟨0, _⟩ => rfl | ⟨1, _⟩ => rfl)
  have el : ∀ d : Fin 128, lidx_main_v5 (ix2 n k) d = ix2 n d := fun d =>
    funext fun a => Fin.ext (by match a with | ⟨0, _⟩ => rfl | ⟨1, _⟩ => rfl)
  have er : ∀ d : Fin 128, idx_main_v4 (ridx_main_v5 (ix2 n k) d) = ix2 k d := fun d =>
    funext fun a => Fin.ext (by match a with | ⟨0, _⟩ => rfl | ⟨1, _⟩ => rfl)
  rw [val_main_v14_apply, val_main_v13_apply, val_main_v10_apply, val_main_v12_apply, val_main_v8_apply,
    val_main_v6_apply, val_main_v1_apply, val_main_v9_apply, val_main_v7_apply, val_main_v3_apply,
    val_main_v11_apply, val_main_v5_apply]
  simp only [val_main_v0_apply, val_main_v2_apply, val_main_v4_apply, val_main_cst_apply, val_main_cst_0_apply,
    val_main_cst_1_apply, e1, e3, el, er, Ideal.mulf_def, Ideal.addf_def, Ideal.subf_def, Ideal.ofBits_def,
    Ideal.ofBits_zero_f32, zero_add, sqNorm]

/-- The reference's result: the quotient by 2²³ of the zero word plus the weighted sum over all rows. -/
theorem result_eq (x0 : (⟨S131072x128, .f32⟩ : BufTy).Contents (Elt Ideal)) (x1 : (⟨S131072x64, .f32⟩ : BufTy).Contents (Elt Ideal))
    (x2 : (⟨S64x128, .f32⟩ : BufTy).Contents (Elt Ideal)) (i : S_.Idx) :
    val_main_v16 (F := Ideal) x0 x1 x2 i
      = Ideal.div (Ideal.ofBits .f32 0x00000000#32 + wsum 131072 x0 x1 x2 (sqNorm x2)) (Ideal.ofBits .f32 0x4B000000#32) := by
  rw [val_main_v16_apply, val_main_v15_apply, sum_idx2]
  simp only [entry_eq, val_main_cst_2_apply, val_main_cst_3_apply, Ideal.hostDivf_def, Ideal.ofBits_def]
  rfl

end Cert.RefSide

end
-- ==== Proof.Payload.lean ====
/-
  The kernel body's arithmetic at the ideal instance, read at its one index.

  One grid point holds a tile of 8192 rows. The body squares and sums each row (‖x p‖²), adds the centre's squared norm
  it is handed as a 1 × 64 row, subtracts twice the product of the tile with the transposed centres (a matrix product
  into zeros: ∑_d x p d · mu k d; the change of format before it is the identity on the extended reals), multiplies by
  the weights, sums each row over the 64 centres, sums the 8192 row sums, and adds the result to the accumulator. So the
  stored value is the accumulator plus the tile's weighted sum (`pay2_apply`). The reset stores the zero word
  (`pay1_apply`) and the last point stores the accumulator times the word 2⁻²³ (`pay3_apply`).
-/
import proofs.«179638_j7834020348325_1_alg».proof.Proof.Gen.KernelIdeal.Skeleton
import proofs.«179638_j7834020348325_1_alg».proof.Proof.WeightedSum
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.WeightedSum

/-! ## Two layout readings -/

section Layout
variable {α : Type}

/-- A vector of `a` entries viewed as a column `[a, 1]` reads, at `(i, u)`, the vector at `i`. -/
theorem shapeCast_column_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast along its unit axis to `[a, b]` reads, at `(p, c)`, the column at `p`. -/
theorem broadcastTo_column_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The tile's product with the transposed centres, at an entry -/

theorem lhs_axis0 (i : S8192x64.Idx) (q : dot_S8192x128_S128x64_S8192x64_1_0_0_1_n_n.contr.Idx) :
    (dot_S8192x128_S128x64_S8192x64_1_0_0_1_n_n.lhsIdx i q 0).val = (i 0).val := by
  unfold DotDims.lhsIdx
  rw [dif_neg (show ¬(0 : Fin S8192x128.rank) ∈ dot_S8192x128_S128x64_S8192x64_1_0_0_1_n_n.lhsBatch by decide), dif_pos (show (0 : Fin S8192x128.rank) ∈ dot_S8192x128_S128x64_S8192x64_1_0_0_1_n_n.lhsNonContracting by decide)]
  rfl
theorem lhs_axis1 (i : S8192x64.Idx) (q : dot_S8192x128_S128x64_S8192x64_1_0_0_1_n_n.contr.Idx) :
    (dot_S8192x128_S128x64_S8192x64_1_0_0_1_n_n.lhsIdx i q 1).val = (q ⟨0, by decide⟩).val :=
  dot_S8192x128_S128x64_S8192x64_1_0_0_1_n_n.lhsIdx_val_of_single rfl i q
theorem rhs_axis0 (i : S8192x64.Idx) (q : dot_S8192x128_S128x64_S8192x64_1_0_0_1_n_n.contr.Idx) :
    (dot_S8192x128_S128x64_S8192x64_1_0_0_1_n_n.rhsIdx i q 0).val = (q ⟨0, by decide⟩).val :=
  dot_S8192x128_S128x64_S8192x64_1_0_0_1_n_n.rhsIdx_val_of_single rfl i q
theorem rhs_axis1 (i : S8192x64.Idx) (q : dot_S8192x128_S128x64_S8192x64_1_0_0_1_n_n.contr.Idx) :
    (dot_S8192x128_S128x64_S8192x64_1_0_0_1_n_n.rhsIdx i q 1).val = (i 1).val := by
  unfold DotDims.rhsIdx
  rw [dif_neg (show ¬(1 : Fin S128x64.rank) ∈ dot_S8192x128_S128x64_S8192x64_1_0_0_1_n_n.rhsBatch by decide), dif_pos (show (1 : Fin S128x64.rank) ∈ dot_S8192x128_S128x64_S8192x64_1_0_0_1_n_n.rhsNonContracting by decide)]
  rfl

/-- The matrix product into zeros, at entry `(p, k)`: the sum over the 128 coordinates of left `(p, d)` times right `(d, k)`. -/
theorem product_apply {φ₁ φ₂ : FTy} (l : FVec Ideal S8192x128 φ₁) (r : FVec Ideal S128x64 φ₂) (p : Fin 8192) (k : Fin 64) :
    matmul dot_S8192x128_S128x64_S8192x64_1_0_0_1_n_n none l r (constant S8192x64 .f32 0x00000000#32) (ix2 p k)
      = ∑ d : Fin 128, l (ix2 p d) * r (ix2 d k) := by
  simp only [matmul]
  rw [Ideal.matmul_constant_zero_apply, ← Equiv.sum_comp (ValueIdx.contrEquiv1 dot_S8192x128_S128x64_S8192x64_1_0_0_1_n_n 128 rfl rfl).symm]
  refine Finset.sum_congr rfl fun d _ => ?_
  have hk := ValueIdx.contrEquiv1_symm_val dot_S8192x128_S128x64_S8192x64_1_0_0_1_n_n 128 rfl rfl d
  have el : dot_S8192x128_S128x64_S8192x64_1_0_0_1_n_n.lhsIdx (ix2 p k) ((ValueIdx.contrEquiv1 dot_S8192x128_S128x64_S8192x64_1_0_0_1_n_n 128 rfl rfl).symm d) = ix2 p d := funext fun a => Fin.ext (by
    match a with
    | ⟨0, _⟩ => exact lhs_axis0 _ _
    | ⟨1, _⟩ => exact (lhs_axis1 _ _).trans hk)
  have er : dot_S8192x128_S128x64_S8192x64_1_0_0_1_n_n.rhsIdx (ix2 p k) ((ValueIdx.contrEquiv1 dot_S8192x128_S128x64_S8192x64_1_0_0_1_n_n 128 rfl rfl).symm d) = ix2 d k := funext fun a => Fin.ext (by
    match a with
    | ⟨0, _⟩ => exact (rhs_axis0 _ _).trans hk
    | ⟨1, _⟩ => exact rhs_axis1 _ _)
  rw [el, er]

/-! ## The three reductions -/

/-- A row's squared norm, kept as a column: at `(p, u)` the sum of the squares of row `p`. -/
theorem rowSquares_apply (v : FVec Ideal S8192x128 .f32) (p : Fin 8192) (u : Fin 1) :
    shapeCast S8192x1 (multiReduction .add [1] S8192 (mulf v v) 0x00000000#32 reduces_S8192x128_S8192 (.inl rfl) rfl) shapeCasts_S8192_S8192x1 (ix2 p u)
      = ∑ d : Fin 128, v (ix2 p d) * v (ix2 p d) := by
  refine (shapeCast_column_apply _ shapeCasts_S8192_S8192x1 p u).trans ?_
  refine (Ideal.multiReduction_add_single (mulf v v) _ reduces_S8192x128_S8192 (.inl rfl) rfl (ix1 p)).trans ?_
  refine Finset.sum_congr rfl fun d _ => ?_
  have e : reduces_S8192x128_S8192.lift (ix1 p) d = ix2 p d :=
    funext fun a => Fin.ext (by match a with | ⟨0, _⟩ => rfl | ⟨1, _⟩ => rfl)
  rw [e]
  rfl

/-- A row's sum over the 64 centres, kept as a column. -/
theorem rowSums_apply (v : FVec Ideal S8192x64 .f32) (p : Fin 8192) (u : Fin 1) :
    shapeCast S8192x1 (multiReduction .add [1] S8192 v 0x00000000#32 reduces_S8192x64_S8192 (.inl rfl) rfl) shapeCasts_S8192_S8192x1 (ix2 p u)
      = ∑ k : Fin 64, v (ix2 p k) := by
  refine (shapeCast_column_apply _ shapeCasts_S8192_S8192x1 p u).trans ?_
  refine (Ideal.multiReduction_add_single v _ reduces_S8192x64_S8192 (.inl rfl) rfl (ix1 p)).trans ?_
  refine Finset.sum_congr rfl fun k _ => ?_
  exact congrArg v (funext fun a => Fin.ext (by match a with | ⟨0, _⟩ => rfl | ⟨1, _⟩ => rfl))

/-- The column's sum over the 8192 rows, kept as a 1 × 1 block. -/
theorem columnSum_apply (v : FVec Ideal S8192x1 .f32) (j : S1x1.Idx) :
    shapeCast S1x1 (multiReduction .add [0] S1 v 0x00000000#32 reduces_S8192x1_S1 (.inl rfl) rfl) shapeCasts_S1_S1x1 j
      = ∑ p : Fin 8192, v (ix2 p (0 : Fin 1)) := by
  obtain ⟨a, b, rfl⟩ : ∃ (a : Fin 1) (b : Fin 1), j = ix2 a b := ⟨j 0, j 1, eq_ix2 j⟩
  refine (shapeCast_a_1a_apply _ shapeCasts_S1_S1x1 a b).trans ?_
  refine (Ideal.multiReduction_add_single v _ reduces_S8192x1_S1 (.inl rfl) rfl (ix1 b)).trans ?_
  refine Finset.sum_congr rfl fun p _ => ?_
  have hb : b.val = 0 := by omega
  exact congrArg v (funext fun c => Fin.ext (by match c with | ⟨0, _⟩ => rfl | ⟨1, _⟩ => exact hb))

/-! ## The payloads -/

/-- The accumulating store's value: the accumulator plus the tile's weighted sum, the centre's number read off the row it is handed. -/
theorem pay2_apply (x0 : Vec Ideal S8192x128 .f32) (x1 : Vec Ideal S8192x64 .f32) (x2 : Vec Ideal S64x128 .f32)
    (x3 : Vec Ideal S1x64 .f32) (acc : Vec Ideal S1x1 .f32) (j : S1x1.Idx) :
    k0_pay2 (F := Ideal) x0 x1 x2 x3 acc j = acc j + wsum 8192 x0 x1 x2 (fun k => x3 (ix2 (0 : Fin 1) k)) := by
  unfold k0_pay2
  simp only [shapeCast_self]
  refine (addf_apply _ _ j).trans (congrArg (acc j + ·) ?_)
  refine (columnSum_apply _ j).trans ?_
  unfold wsum
  refine Finset.sum_congr rfl fun p _ => ?_
  refine (rowSums_apply _ p 0).trans ?_
  refine Finset.sum_congr rfl fun k _ => ?_
  refine (mulf_apply _ _ _).trans (congrArg (x1 (ix2 p k) * ·) ?_)
  refine (subf_apply _ _ _).trans (congrArg₂ (· - ·) ?_ ?_)
  · refine (addf_apply _ _ _).trans (congrArg₂ (· + ·) ?_ ?_)
    · refine (broadcastTo_column_apply _ broadcasts_S8192x1_S8192x64 p k).trans ?_
      exact rowSquares_apply x0 p 0
    · exact broadcastTo_1b_ab_apply x3 broadcasts_S1x64_S8192x64 p k
  · refine (mulf_apply _ _ _).trans (congrArg₂ (· * ·) rfl ?_)
    refine (product_apply _ _ p k).trans ?_
    refine Finset.sum_congr rfl fun d _ => congrArg₂ (· * ·) rfl ?_
    exact transpose_ix2_apply _ transposes_S64x128_p1_0_S128x64 d k

/-- The reset's value: zero. -/
theorem pay1_apply (j : S1x1.Idx) : k0_pay1 (F := Ideal) j = 0 := by
  unfold k0_pay1
  simp only [shapeCast_self]
  exact Ideal.ofBits_zero_f32

/-- The last point's value: the accumulator times the word 2⁻²³. -/
theorem pay3_apply (v : Vec Ideal S1x1 .f32) (j : S1x1.Idx) :
    k0_pay3 (F := Ideal) v j = v j * Ideal.ofBits .f32 0x34000000#32 := rfl

end Cert.KernelIdeal.Payload

end
-- ==== Proof.Pieces.lean ====
/-
  What one run of the kernel body leaves behind, as values of the body's arithmetic.

  The body loads its four input blocks whole and keeps a 1 × 1 accumulator. At the first grid point it first stores zero
  into the accumulator and then reads it back; at every point it stores the accumulator plus the tile's partial sum; at
  the last point it also reads the accumulator back and stores it, scaled, into the 1 × 1 output block. Every store
  covers its whole buffer and every load reads a whole buffer, so what a buffer holds afterwards is the last value
  stored into it, as a function of the loaded blocks and of what the accumulator held before.
-/
import proofs.«179638_j7834020348325_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- Every load and store of the body starts at the origin of its buffer. -/
theorem hz : (![0, 0] : Fin 2 → Nat) = fun _ => 0 := funext fun a => by fin_cases a <;> rfl

/-- First point: the accumulator ends at the update of the zero the reset stored. -/
theorem acc_first (c : Dev nD) (i : grid0.Coords) (arg1 : Memref sig .tc .vmem S8192x128 .f32) (harg1 : arg1.IsWhole) (arg2 : Memref sig .tc .vmem S8192x64 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i) (x0 : Vec F S8192x128 .f32) (x1 : Vec F S8192x64 .f32) (x2 : Vec F S64x128 .f32) (x3 : Vec F S1x64 .f32) :
    sout0_A_0 c i arg1 harg1 arg2 harg2 arg3 harg3 arg4 harg4 arg5 harg5 arg6 harg6 hc0 hc1 x0 x1 x2 x3 = k0_pay2 x0 x1 x2 x3 (k0_pay1 (F := F)) := by
  unfold sout0_A_0
  rw [View.read_writes_eq_canon _ _ _ (scover0_A_0 c i arg1 harg1 arg2 harg2 arg3 harg3 arg4 harg4 arg5 harg5 arg6 harg6 hc0 hc1 x0 x1 x2 x3)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg4.read_unread, harg6.read_unread,
    View.ld_unit_zero (S := S8192x128) hz, View.ld_unit_zero (S := S8192x64) hz, View.ld_unit_zero (S := S64x128) hz,
    View.ld_unit_zero (S := S1x64) hz, View.ld_unit_zero (S := S1x1) hz]

/-- A middle point: the accumulator ends at the update of what the point before left. -/
theorem acc_middle (c : Dev nD) (i : grid0.Coords) (arg1 : Memref sig .tc .vmem S8192x128 .f32) (harg1 : arg1.IsWhole) (arg2 : Memref sig .tc .vmem S8192x64 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i) (x0 : Vec F S8192x128 .f32) (x1 : Vec F S8192x64 .f32) (x2 : Vec F S64x128 .f32) (x3 : Vec F S1x64 .f32) (xs0 : Vec F S1x1 .f32) :
    sout0_B_0 c i arg1 harg1 arg2 harg2 arg3 harg3 arg4 harg4 arg5 harg5 arg6 harg6 hc0 hc1 x0 x1 x2 x3 xs0 = k0_pay2 x0 x1 x2 x3 xs0 := by
  unfold sout0_B_0
  rw [View.read_writes_eq_canon _ _ _ (scover0_B_0 c i arg1 harg1 arg2 harg2 arg3 harg3 arg4 harg4 arg5 harg5 arg6 harg6 hc0 hc1 x0 x1 x2 x3 xs0)]
  unfold kernelRun0_B
  dsimp only
  rw [View.canon_unit_zero hz]
  simp only [View.readAt_eq_ld, harg1.read_unread, harg2.read_unread, harg3.read_unread, harg4.read_unread, harg6.read_unread,
    View.ld_unit_zero (S := S8192x128) hz, View.ld_unit_zero (S := S8192x64) hz, View.ld_unit_zero (S := S64x128) hz,
    View.ld_unit_zero (S := S1x64) hz, View.ld_unit_zero (S := S1x1) hz]

/-- The last point: the accumulator ends at the update of what the point before left, -/
theorem acc_last (c : Dev nD) (i : grid0.Coords) (arg1 : Memref sig .tc .vmem S8192x128 .f32) (harg1 : arg1.IsWhole) (arg2 : Memref sig .tc .vmem S8192x64 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i) (x0 : Vec F S8192x128 .f32) (x1 : Vec F S8192x64 .f32) (x2 : Vec F S64x128 .f32) (x3 : Vec F S1x64 .f32) (xs0 : Vec F S1x1 .f32) :
    sout0_C_0 c i arg1 harg1 arg2 harg2 arg3 harg3 arg4 harg4 arg5 harg5 arg6 harg6 hc0 hc1 x0 x1 x2 x3 xs0 = k0_pay2 x0 x1 x2 x3 xs0 := by
  unfold sout0_C_0
  rw [View.read_writes_eq_canon _ _ _ (scover0_C_0 c i arg1 harg1 arg2 harg2 arg3 harg3 arg4 harg4 arg5 harg5 arg6 harg6 hc0 hc1 x0 x1 x2 x3 xs0)]
  unfold kernelRun0_C
  dsimp only
  sl_unfold_words
  rw [View.canon_unit_zero hz]
  simp only [View.readAt_eq_ld, harg1.read_unread, harg2.read_unread, harg3.read_unread, harg4.read_unread, harg6.read_unread,
    View.ld_unit_zero (S := S8192x128) hz, View.ld_unit_zero (S := S8192x64) hz, View.ld_unit_zero (S := S64x128) hz,
    View.ld_unit_zero (S := S1x64) hz, View.ld_unit_zero (S := S1x1) hz]

/-- and the output block at that update, scaled. -/
theorem out_last (c : Dev nD) (i : grid0.Coords) (arg1 : Memref sig .tc .vmem S8192x128 .f32) (harg1 : arg1.IsWhole) (arg2 : Memref sig .tc .vmem S8192x64 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i) (x0 : Vec F S8192x128 .f32) (x1 : Vec F S8192x64 .f32) (x2 : Vec F S64x128 .f32) (x3 : Vec F S1x64 .f32) (xs0 : Vec F S1x1 .f32) :
    out0_C_4 c i arg1 harg1 arg2 harg2 arg3 harg3 arg4 harg4 arg5 harg5 arg6 harg6 hc0 hc1 x0 x1 x2 x3 xs0 = k0_pay3 (k0_pay2 x0 x1 x2 x3 xs0) := by
  unfold out0_C_4
  rw [View.read_writes_eq_canon _ _ _ (cover0_C_4 c i arg1 harg1 arg2 harg2 arg3 harg3 arg4 harg4 arg5 harg5 arg6 harg6 hc0 hc1 x0 x1 x2 x3 xs0)]
  unfold kernelRun0_C
  dsimp only
  sl_unfold_words
  rw [View.canon_unit_zero hz]
  simp only [View.readCov_unit_zero (S := S1x1) _ hz, View.readAt_eq_ld, harg1.read_unread, harg2.read_unread, harg3.read_unread, harg4.read_unread, harg6.read_unread,
    View.ld_unit_zero (S := S8192x128) hz, View.ld_unit_zero (S := S8192x64) hz, View.ld_unit_zero (S := S64x128) hz,
    View.ld_unit_zero (S := S1x64) hz, View.ld_unit_zero (S := S1x1) hz]

end Cert.KernelIdeal.Pieces

end
-- ==== Proof.Accumulate.lean ====
/-
  The accumulator over the sixteen grid points, at the ideal instance.

  Point `t` holds tile `t`: 8192 rows of X and of r, all of mus, and the row of the centres' squared norms. Its partial
  sum is the tile's weighted sum (`tileSum`). The accumulator is set to zero at the first point and every point adds its
  partial sum, so after point `n` it holds  ((0 + s₀) + s₁) + … + sₙ  (`running`, `scratch_eq`: by induction on the
  point, the three control cases of the body distinguished by the point's number). Only the last point writes the output
  block, the accumulator times the word 2⁻²³, and only that point's block is written back: it is the whole 1 × 1 array
  (`final_out`).
-/
import proofs.«179638_j7834020348325_1_alg».proof.Proof.Gen.KernelIdeal.Frame
import proofs.«179638_j7834020348325_1_alg».proof.Proof.WeightedSum
import proofs.«179638_j7834020348325_1_alg».proof.Proof.Payload
import proofs.«179638_j7834020348325_1_alg».proof.Proof.Pieces
import Idealize.ShloMosaic.Lib.Pipeline.Value
import Idealize.ShloMosaic.Lib.Tactic

noncomputable section

open scoped BigOperators
open Idealize.ShloMosaic Idealize.ShloMosaic.TcCoe Idealize.SL.Sem
open Idealize.ShloMosaic.Pipeline (Dat)

namespace Cert.KernelIdeal.Accumulate

open Cert.KernelIdeal Cert.KernelIdeal.Gen Idealize.ShloMosaic.ValueIdx Cert.WeightedSum

variable (m : (ℓ : Loc nD τ sig) → Buf (Elt Ideal) ℓ)

/-- The four input blocks at point `t`, at their literal types. -/
abbrev xblk (c : Dev nD) (t : Fin cfg0.N) : Vec Ideal S8192x128 .f32 := iblk m c 0 t
abbrev rblk (c : Dev nD) (t : Fin cfg0.N) : Vec Ideal S8192x64 .f32 := iblk m c 1 t
abbrev mublk (c : Dev nD) (t : Fin cfg0.N) : Vec Ideal S64x128 .f32 := iblk m c 2 t
abbrev qblk (c : Dev nD) (t : Fin cfg0.N) : Vec Ideal S1x64 .f32 := iblk m c 3 t

/-- Point `t`'s partial sum: the weighted sum over its tile. -/
def tileSum (c : Dev nD) (t : Fin cfg0.N) : EReal :=
  wsum 8192 (xblk m c t) (rblk m c t) (mublk m c t) (fun k => qblk m c t (ix2 (0 : Fin 1) k))

/-- The accumulator after point `n`: zero, then the partial sums added in point order. -/
def running (c : Dev nD) : (n : ℕ) → n < cfg0.N → EReal
  | 0, h => 0 + tileSum m c ⟨0, h⟩
  | n + 1, h => running c n (Nat.lt_of_succ_lt h) + tileSum m c ⟨n + 1, h⟩

/-! ## The three control cases -/

theorem scratch_first (c : Dev nD) (t : Fin cfg0.N) (h0 : t.val % 16 = 0) (h1 : ¬t.val % 16 = 15) :
    (outsAt0 m c t.val t.isLt).2 = k0_pay2 (xblk m c t) (rblk m c t) (mublk m c t) (qblk m c t) (k0_pay1 (F := Ideal)) := by
  rw [outsAt0_A m c t h0 h1]
  dsimp only
  exact Pieces.acc_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

theorem scratch_middle (c : Dev nD) (t : Fin cfg0.N) (h0 : ¬t.val % 16 = 0) (h1 : ¬t.val % 16 = 15) :
    (outsAt0 m c t.val t.isLt).2 = k0_pay2 (xblk m c t) (rblk m c t) (mublk m c t) (qblk m c t) (outsAt0 m c (t.val - 1) (Nat.lt_of_le_of_lt (Nat.sub_le _ _) t.isLt)).2 := by
  rw [outsAt0_B m c t h0 h1]
  dsimp only
  exact Pieces.acc_middle (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2

theorem scratch_last (c : Dev nD) (t : Fin cfg0.N) (h0 : ¬t.val % 16 = 0) (h1 : t.val % 16 = 15) :
    (outsAt0 m c t.val t.isLt).2 = k0_pay2 (xblk m c t) (rblk m c t) (mublk m c t) (qblk m c t) (outsAt0 m c (t.val - 1) (Nat.lt_of_le_of_lt (Nat.sub_le _ _) t.isLt)).2 := by
  rw [outsAt0_C m c t h0 h1]
  dsimp only
  exact Pieces.acc_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2

theorem output_last (c : Dev nD) (t : Fin cfg0.N) (h0 : ¬t.val % 16 = 0) (h1 : t.val % 16 = 15) :
    (outsAt0 m c t.val t.isLt).1
      = k0_pay3 (k0_pay2 (xblk m c t) (rblk m c t) (mublk m c t) (qblk m c t) (outsAt0 m c (t.val - 1) (Nat.lt_of_le_of_lt (Nat.sub_le _ _) t.isLt)).2) := by
  rw [outsAt0_C m c t h0 h1]
  dsimp only
  exact Pieces.out_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2

/-! ## The accumulator is the running sum -/

theorem scratch_eq (c : Dev nD) : ∀ (n : ℕ) (h : n < cfg0.N), (outsAt0 m c n h).2 = fun _ => running m c n h
  | 0, h => by
    refine (scratch_first m c ⟨0, h⟩ rfl (by dsimp only; omega)).trans ?_
    funext j
    rw [Payload.pay2_apply, Payload.pay1_apply]
    rfl
  | n + 1, h => by
    have hN : cfg0.N = 16 := N_0
    have hprev := scratch_eq c n (Nat.lt_of_succ_lt h)
    have h0 : ¬(⟨n + 1, h⟩ : Fin cfg0.N).val % 16 = 0 := by dsimp only; omega
    by_cases h15 : (⟨n + 1, h⟩ : Fin cfg0.N).val % 16 = 15
    · refine (scratch_last m c ⟨n + 1, h⟩ h0 h15).trans ?_
      funext j
      rw [Payload.pay2_apply]
      show (outsAt0 m c n _).2 j + _ = running m c n _ + _
      rw [hprev]
      rfl
    · refine (scratch_middle m c ⟨n + 1, h⟩ h0 h15).trans ?_
      funext j
      rw [Payload.pay2_apply]
      show (outsAt0 m c n _).2 j + _ = running m c n _ + _
      rw [hprev]
      rfl

/-! ## The result array -/

theorem lt_N : 15 < cfg0.N := by rw [show cfg0.N = 16 from N_0]; decide

/-- The 1 × 1 result: the accumulator after the last point, times the word 2⁻²³. -/
abbrev result (c : Dev nD) : Buf (Elt Ideal) ((c : Thread nD τ).loc main_v4) :=
  fun _ => running m c 15 lt_N * Ideal.ofBits .f32 0x34000000#32

/-- What the last point leaves in the output block is that result. -/
theorem output_eq (c : Dev nD) : (outsAt0 m c t0_15.val t0_15.isLt).1 = result m c := by
  refine (output_last m c t0_15 (by decide) (by decide)).trans ?_
  funext j
  rw [Payload.pay3_apply, Payload.pay2_apply, scratch_eq m c]
  rfl

/-- The one write-back, after point 15, writes it: the block at the origin of the 1 × 1 array is the array. -/
theorem flushed_eq (c : Dev nD) (t : Fin cfg0.N) (hf : (cfg0.win 4).flush t = true) :
    (dats m 0 c).flushed 4 t = ((cfg0.win 4).blk t).view.read (Elt Ideal) (result m c) := by
  have hN : cfg0.N = 16 := N_0
  have h15 : t.val = 15 := by have := (flush0_4 t).mp hf; have := t.isLt; omega
  obtain rfl : t = t0_15 := Fin.ext h15
  show (cfg0.win 4).cut (grid0.coords t0_15) ((dats m 0 c).after 4 t0_15) = _
  rw [after0_4, output_eq]
  have hz' : (fun a => win0_4.index t0_15 a * main_v4.ty.shape.size a) = fun _ => 0 := funext fun a => by fin_cases a <;> decide
  exact (Memref.read_access_unit_zero (Elt Ideal) main_v4 hz' (fun a => by rw [congrFun hz' a]; simp) (result m c)).symm

/-- So the result array ends holding it. -/
theorem final_out (c : Dev nD) : (dats m 0 c).arrAt 4 cfg0.N = result m c :=
  (dats m 0 c).arrAt_eq_of_cover 4 (result m c) (flushed_eq m c) fun i =>
    ⟨t0_15, (flush0_4 t0_15).mpr rfl, by
      show i ∈ ((View.whole main_v4).slice (win0_4.rect t0_15)).set
      rw [View.set_slice_whole, Rect.mem_set_unit]
      intro a
      have h0 : (i 0 : Nat) < 1 := (i 0).isLt
      have h1 : (i 1 : Nat) < 1 := (i 1).isLt
      match a with
      | ⟨0, _⟩ => show win0_4.index t0_15 0 * win0_4.size 0 ≤ (i 0 : Nat) ∧ (i 0 : Nat) < win0_4.index t0_15 0 * win0_4.size 0 + win0_4.xsize (grid0.coords t0_15) 0
                  rw [show win0_4.index t0_15 0 * win0_4.size 0 = 0 from by decide +kernel, show win0_4.xsize (grid0.coords t0_15) 0 = 1 from by decide +kernel]; omega
      | ⟨1, _⟩ => show win0_4.index t0_15 1 * win0_4.size 1 ≤ (i 1 : Nat) ∧ (i 1 : Nat) < win0_4.index t0_15 1 * win0_4.size 1 + win0_4.xsize (grid0.coords t0_15) 1
                  rw [show win0_4.index t0_15 1 * win0_4.size 1 = 0 from by decide +kernel, show win0_4.xsize (grid0.coords t0_15) 1 = 1 from by decide +kernel]; omega⟩

end Cert.KernelIdeal.Accumulate

end
-- ==== Proof.KernelValue.lean ====
/-
  The idealized kernel's result as a function of its three arguments.

  Tile `t` of X and of r is their rows 8192·t … 8192·t + 8191; the centres' block is all of mus at every point; the row
  of squared norms the kernel is handed is computed before the call by host operations from mus (a product, a sum over
  the 128 coordinates started from the zero word, a broadcast to a column and a reshape to a row), so at (0, k) it is
  the squared norm of centre k. Hence each point's partial sum is the weighted sum over its tile of the argument arrays,
  the accumulator after the last point is the weighted sum over all 131072 rows (the tiles partition the rows), and the
  program's result, the 1 × 1 array reshaped to a scalar after the call, is that sum times the word 2⁻²³.
-/
import proofs.«179638_j7834020348325_1_alg».proof.Proof.Accumulate
import Idealize.ShloMosaic.Lib.StableHlo.Run
import Idealize.ShloMosaic.Lib.Pipeline.Value
import Idealize.ShloMosaic.PureOps.Ideal.Laws

noncomputable section

open scoped BigOperators
open Idealize.ShloMosaic Idealize.ShloMosaic.TcCoe Idealize.SL.Sem
open Idealize.ShloMosaic.Pipeline (Dat)

namespace Cert.KernelIdeal.KernelValue

open Cert.KernelIdeal Cert.KernelIdeal.Gen Idealize.ShloMosaic.ValueIdx Cert.WeightedSum Cert.KernelIdeal.Accumulate
open Idealize.ShloMosaic.StableHlo

variable (m : (ℓ : Loc nD τ sig) → Buf (Elt Ideal) ℓ) (ρ : Dev nD → PrngReg)

/-- The three argument arrays, at their literal types. -/
abbrev argX (c : Dev nD) : (⟨2, ![131072, 128]⟩ : Shape).Idx → EReal := m ((c : Thread nD τ).loc main_arg0)
abbrev argR (c : Dev nD) : (⟨2, ![131072, 64]⟩ : Shape).Idx → EReal := m ((c : Thread nD τ).loc main_arg1)
abbrev argMu (c : Dev nD) : (⟨2, ![64, 128]⟩ : Shape).Idx → EReal := m ((c : Thread nD τ).loc main_arg2)

/-- A grid point as a tile number. -/
def tileOf (t : Fin cfg0.N) : Fin 16 := ⟨t.val, lt_of_lt_of_eq t.isLt (show cfg0.N = 16 from N_0)⟩

/-! ## The blocks -/

theorem index_x : ∀ t : Fin cfg0.N, win0_0.index t 0 = t.val ∧ win0_0.index t 1 = 0 :=
  (by decide +kernel : ∀ t : Fin grid0.N, win0_0.index t 0 = t.val ∧ win0_0.index t 1 = 0)
theorem index_r : ∀ t : Fin cfg0.N, win0_1.index t 0 = t.val ∧ win0_1.index t 1 = 0 :=
  (by decide +kernel : ∀ t : Fin grid0.N, win0_1.index t 0 = t.val ∧ win0_1.index t 1 = 0)
theorem index_mu : ∀ t : Fin cfg0.N, win0_2.index t 0 = 0 ∧ win0_2.index t 1 = 0 :=
  (by decide +kernel : ∀ t : Fin grid0.N, win0_2.index t 0 = 0 ∧ win0_2.index t 1 = 0)
theorem index_q : ∀ t : Fin cfg0.N, win0_3.index t 0 = 0 ∧ win0_3.index t 1 = 0 :=
  (by decide +kernel : ∀ t : Fin grid0.N, win0_3.index t 0 = 0 ∧ win0_3.index t 1 = 0)

/-- X's block at point `t` is tile `t` of X. -/
theorem xblk_eq (c : Dev nD) (t : Fin cfg0.N) : xblk m c t = rowTile (argX m c) (tileOf t) := by
  have hi := index_x t
  funext j
  show iblk m c 0 t j = _
  unfold iblk
  rw [View.read_apply]
  refine (congrFun (V_main_arg0 m c) _).trans ?_
  refine congrArg (m ((c : Thread nD τ).loc main_arg0)) (funext fun a => Fin.ext ?_)
  match a with
  | ⟨0, _⟩ => show win0_0.index t 0 * 8192 + 1 * (j 0).val = t.val * 8192 + (j 0).val; rw [hi.1]; omega
  | ⟨1, _⟩ => show win0_0.index t 1 * 128 + 1 * (j 1).val = (j 1).val; rw [hi.2]; omega

/-- r's block at point `t` is tile `t` of r. -/
theorem rblk_eq (c : Dev nD) (t : Fin cfg0.N) : rblk m c t = rowTile (argR m c) (tileOf t) := by
  have hi := index_r t
  funext j
  show iblk m c 1 t j = _
  unfold iblk
  rw [View.read_apply]
  refine (congrFun (V_main_arg1 m c) _).trans ?_
  refine congrArg (m ((c : Thread nD τ).loc main_arg1)) (funext fun a => Fin.ext ?_)
  match a with
  | ⟨0, _⟩ => show win0_1.index t 0 * 8192 + 1 * (j 0).val = t.val * 8192 + (j 0).val; rw [hi.1]; omega
  | ⟨1, _⟩ => show win0_1.index t 1 * 64 + 1 * (j 1).val = (j 1).val; rw [hi.2]; omega

/-- The centres' block is all of mus, at every point. -/
theorem mublk_eq (c : Dev nD) (t : Fin cfg0.N) : mublk m c t = argMu m c := by
  have hi := index_mu t
  funext j
  show iblk m c 2 t j = _
  unfold iblk
  rw [View.read_apply]
  refine (congrFun (V_main_arg2 m c) _).trans ?_
  refine congrArg (m ((c : Thread nD τ).loc main_arg2)) (funext fun a => Fin.ext ?_)
  match a with
  | ⟨0, _⟩ => show win0_2.index t 0 * 64 + 1 * (j 0).val = (j 0).val; rw [hi.1]; omega
  | ⟨1, _⟩ => show win0_2.index t 1 * 128 + 1 * (j 1).val = (j 1).val; rw [hi.2]; omega

/-- The norm row's block is the whole row the host operations computed, at every point. -/
theorem qblk_eq (c : Dev nD) (t : Fin cfg0.N) : qblk m c t = V m c main_v3 := by
  have hi := index_q t
  funext j
  show iblk m c 3 t j = _
  unfold iblk
  rw [View.read_apply]
  refine congrArg (V m c main_v3) (funext fun a => Fin.ext ?_)
  match a with
  | ⟨0, _⟩ => show win0_3.index t 0 * 1 + 1 * (j 0).val = (j 0).val; rw [hi.1]; omega
  | ⟨1, _⟩ => show win0_3.index t 1 * 64 + 1 * (j 1).val = (j 1).val; rw [hi.2]; omega

/-! ## The row of squared norms -/

/-- What the host operations before the call leave in the norm row. -/
theorem normRow_eq (c : Dev nD) :
    (V m c main_v3 : S1x64.Idx → EReal)
      = shapeCast S1x64 (broadcastInDim S64x1 ![0] bcast_S64_S64x1_0
          (Host.reduceAdd (F := Ideal) (mulf (argMu m c) (argMu m c)) (constant S_ .f32 0x00000000#32) reducesTo_S64x128_S64_d1 h_S_))
          shapeCasts_S64x1_S1x64 := by
  show StableHlo.after hostOps0 (fun b => m (c, b)) (Proc.devRef .tc main_v3) = _
  after_results
  rfl

/-- At (0, k) it is the squared norm of centre k. -/
theorem normRow_apply (c : Dev nD) (k : Fin 64) : (V m c main_v3 : S1x64.Idx → EReal) (ix2 (0 : Fin 1) k) = sqNorm (argMu m c) k := by
  rw [normRow_eq]
  refine (shapeCast_apply _ shapeCasts_S64x1_S1x64 (ix2 (0 : Fin 1) k) (ix2 k (0 : Fin 1)) (by
    rw [Shape.rowMajor_val_two, Shape.rowMajor_val_two]
    show k.val * 1 + 0 = 0 * 64 + k.val
    omega)).trans ?_
  refine (broadcastInDim_apply _ bcast_S64_S64x1_0 _ (ix2 k (0 : Fin 1)) (ix1 k) (fun a => match a with
    | ⟨0, _⟩ => by show k.val = if (64 : Nat) = 1 then 0 else k.val; rw [if_neg (by decide)])).trans ?_
  simp only [Host.reduceAdd, Ideal.hostReduceAdd_def]
  rw [Ideal.hostReduceAdd_single reducesTo_S64x128_S64_d1 (by decide)]
  show Ideal.ofBits .f32 0x00000000#32 + _ = _
  rw [Ideal.ofBits_zero_f32, zero_add]
  unfold sqNorm
  refine Finset.sum_congr rfl fun d _ => ?_
  have e : (by decide : S64x128.Reduces [1] S64).lift (ix1 k) d = ix2 k d :=
    funext fun a => Fin.ext (by match a with | ⟨0, _⟩ => rfl | ⟨1, _⟩ => rfl)
  rw [e]
  rfl

/-! ## The partial sums and their total -/

/-- Point `t`'s partial sum is the weighted sum over tile `t` of the argument arrays. -/
theorem tileSum_eq (c : Dev nD) (t : Fin cfg0.N) :
    tileSum m c t = wsum 8192 (rowTile (argX m c) (tileOf t)) (rowTile (argR m c) (tileOf t)) (argMu m c) (sqNorm (argMu m c)) := by
  unfold tileSum
  rw [xblk_eq, rblk_eq, mublk_eq, qblk_eq]
  exact congrArg (wsum 8192 _ _ _) (funext fun k => normRow_apply m c k)

/-- The accumulator after point `n` is the sum of the first `n + 1` partial sums. -/
theorem running_eq_sum (c : Dev nD) : ∀ (n : ℕ) (h : n < cfg0.N),
    running m c n h = ∑ s : Fin (n + 1), tileSum m c ⟨s.val, lt_of_lt_of_le s.isLt (Nat.succ_le_of_lt h)⟩
  | 0, h => by
    show 0 + tileSum m c ⟨0, h⟩ = _
    rw [zero_add, Fin.sum_univ_one]
    rfl
  | n + 1, h => by
    show running m c n _ + tileSum m c ⟨n + 1, h⟩ = _
    rw [Fin.sum_univ_castSucc, running_eq_sum c n]
    rfl

/-- After the last point it is the weighted sum over all rows. -/
theorem total_eq (c : Dev nD) :
    running m c 15 lt_N = wsum 131072 (argX m c) (argR m c) (argMu m c) (sqNorm (argMu m c)) := by
  rw [running_eq_sum, wsum_tiles]
  refine Finset.sum_congr rfl fun s _ => ?_
  exact tileSum_eq m c _

/-! ## The program's result -/

/-- The scalar result: the weighted sum over all rows, times the word 2⁻²³. -/
abbrev value (c : Dev nD) : Buf (Elt Ideal) ((c : Thread nD τ).loc main_v5) :=
  fun _ => wsum 131072 (argX m c) (argR m c) (argMu m c) (sqNorm (argMu m c)) * Ideal.ofBits .f32 0x34000000#32

/-- The reshape after the call reads the 1 × 1 result array. -/
theorem tail_eq (c : Dev nD) :
    Pipeline.afterTail₀ cfgs (dats m) 0 (V0 m) [hostOps1] c main_v5 = value m c := by
  have e : Pipeline.withArrays (cfgs 0).spec c (V0 m c) (fun w => (dats m 0 c).arrAt w (cfgs 0).N) (Proc.tc.devRef main_v4) = result m c :=
    (Pipeline.withArrays_arr spec0 launch0.win.arr_inj c _ _ 4).trans (final_out m c)
  unfold Pipeline.afterTail₀
  show StableHlo.after hostOps1 _ (Proc.devRef .tc main_v5) = _
  after_results
  refine Eq.trans (b := shapeCast S_ (Pipeline.withArrays (cfgs 0).spec c (V0 m c) (fun w => (dats m 0 c).arrAt w (cfgs 0).N) (Proc.tc.devRef main_v4)) shapeCasts_S1x1_S_) rfl ?_
  rw [e]
  funext i
  show running m c 15 lt_N * _ = _
  rw [total_eq]

/-- The run: the result buffer ends at `value`, the three arguments unchanged. -/
theorem run : θ_run defs (onTc (τ := τ) (main (F := Ideal))) ⟨m, fun _ => 0, ρ⟩ fun r => ∀ c : Dev nD,
      r.2.mem ((c.tc : Thread nD τ).loc main_v5) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v5 (Pipeline.mem_restRefs_of main_v5 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.KernelValue

end
-- ==== Proof.lean ====
/-
  The mean over all (n, k) of  r n k · ‖X n − mus k‖²,  with the squared distance expanded as
  ‖X n‖² + ‖mus k‖² − 2 ⟨X n, mus k⟩, for X of 131072 rows, 64 centres and 128 coordinates: the kernel against the
  reference, as functions of the three arguments over the extended reals.

  The kernel walks the rows in sixteen tiles of 8192. Each grid point forms, for its tile, the entries
  r n k · ((‖X n‖² + ‖mus k‖²) − 2 ⟨X n, mus k⟩)  (the inner products by a matrix product with the transposed centres, the
  centres' squared norms handed in as a row computed beforehand), sums them over the 64 centres and then over the 8192
  rows, and adds the partial sum to an accumulator that the first point resets; the last point multiplies the accumulator
  by 2⁻²³ and that single number is the result. The reference forms the same entries for all rows at once, sums them all,
  and divides by 2²³ = 131072 · 64.

  Both sums are sums of the same 2²³ extended reals: the kernel's grouping (by tile, by row, by centre, the tiles added
  in order) and the reference's single sum agree because addition of extended reals is commutative and associative, and
  the zero words the sums start from denote 0. The product with 2⁻²³ and the quotient by 2²³ are one function on every
  extended real. Nothing here needs the inputs to be finite.

  The kernel's two frames are the generated ones; the reference's frame is its generated run with the result dropped;
  the idealized kernel is the kernel's own text read at the extended reals, so there is nothing to preserve.
-/
import proofs.«179638_j7834020348325_1_alg».proof.Defs
import proofs.«179638_j7834020348325_1_alg».proof.Proof.Gen.Kernel
import proofs.«179638_j7834020348325_1_alg».proof.Proof.Gen.Kernel.Skeleton
import proofs.«179638_j7834020348325_1_alg».proof.Proof.Gen.Kernel.Launch
import proofs.«179638_j7834020348325_1_alg».proof.Proof.Gen.Kernel.Points
import proofs.«179638_j7834020348325_1_alg».proof.Proof.Gen.Kernel.Frame
import proofs.«179638_j7834020348325_1_alg».proof.Proof.Gen.KernelIdeal
import proofs.«179638_j7834020348325_1_alg».proof.Proof.Gen.KernelIdeal.Skeleton
import proofs.«179638_j7834020348325_1_alg».proof.Proof.Gen.KernelIdeal.Launch
import proofs.«179638_j7834020348325_1_alg».proof.Proof.Gen.KernelIdeal.Points
import proofs.«179638_j7834020348325_1_alg».proof.Proof.Gen.KernelIdeal.Frame
import proofs.«179638_j7834020348325_1_alg».proof.Proof.Gen.ReferenceIdeal
import proofs.«179638_j7834020348325_1_alg».proof.Proof.Gen.ReferenceIdeal.Run
import proofs.«179638_j7834020348325_1_alg».proof.Proof.Gen.ReferenceIdeal.Read
import proofs.«179638_j7834020348325_1_alg».proof.Proof.Gen.Pre_finite_inputs
import proofs.«179638_j7834020348325_1_alg».proof.Proof.WeightedSum
import proofs.«179638_j7834020348325_1_alg».proof.Proof.RefSide
import proofs.«179638_j7834020348325_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From arguments that agree, the kernel's scalar is the weighted sum over all rows times 2⁻²³ and the reference's is the
    quotient by 2²³ of the zero word plus the same sum: equal extended reals. -/
theorem algebraic : Cert.algebraic_KernelIdeal_ReferenceIdeal := by
  intro m ρ m' ρ' _ hagree
  refine ⟨fun c => Cert.KernelIdeal.KernelValue.value m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, (hagree c).1, (hagree c).2.1, (hagree c).2.2]
  funext i
  rw [Cert.RefSide.result_eq]
  exact (Cert.WeightedSum.scale_eq_quotient _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
